-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x128 : Shape := ⟨4, ![16, 512, 64, 128]⟩
abbrev S_ : Shape := ⟨0, ![]⟩

class Facts : Prop where
  bcast_S_S16x512x64x128 : S_.BroadcastsInDim S16x512x64x128 (![] : Fin 0 → Fin S16x512x64x128.rank)
  reducesTo_S16x512x64x128_S_d0_1_2_3 : S16x512x64x128.ReducesTo [0, 1, 2, 3] S_
  h_S_ : 0 < S_.numel

variable [Facts]

def fn {F : FTy → Type} [FloatOps F] (main_arg0 : FVec F S16x512x64x128 .f32) : IVec S_ 1 :=
  let main_v0 : FVec F S16x512x64x128 .f32 := Host.absf main_arg0
  let main_cst : FVec F S_ .f32 := constant S_ .f32 0x7F800000#32
  let main_v1 : FVec F S16x512x64x128 .f32 := broadcastInDim S16x512x64x128 ![] bcast_S_S16x512x64x128 main_cst
  let main_v2 : IVec S16x512x64x128 1 := cmpf .olt main_v0 main_v1
  let main_c : IVec S_ 1 := constantI S_ 1 1#1
  let main_v3 : IVec S_ 1 := (fun x v => Host.reduce IntOp.andi x v reducesTo_S16x512x64x128_S_d0_1_2_3 h_S_) main_v2 main_c
  main_v3
-- ==== Kernel.lean ====
abbrev S16x512x64x128 : Shape := ⟨4, ![16, 512, 64, 128]⟩
abbrev S1x64x64x128 : Shape := ⟨4, ![1, 64, 64, 128]⟩
abbrev S1x1x64x128 : Shape := ⟨4, ![1, 1, 64, 128]⟩
abbrev S1x63x64x128 : Shape := ⟨4, ![1, 63, 64, 128]⟩
abbrev S1x2x64x128 : Shape := ⟨4, ![1, 2, 64, 128]⟩
abbrev S1x62x64x128 : Shape := ⟨4, ![1, 62, 64, 128]⟩
abbrev S1x4x64x128 : Shape := ⟨4, ![1, 4, 64, 128]⟩
abbrev S1x60x64x128 : Shape := ⟨4, ![1, 60, 64, 128]⟩
abbrev S1x8x64x128 : Shape := ⟨4, ![1, 8, 64, 128]⟩
abbrev S1x56x64x128 : Shape := ⟨4, ![1, 56, 64, 128]⟩
abbrev S1x16x64x128 : Shape := ⟨4, ![1, 16, 64, 128]⟩
abbrev S1x48x64x128 : Shape := ⟨4, ![1, 48, 64, 128]⟩
abbrev S1x32x64x128 : Shape := ⟨4, ![1, 32, 64, 128]⟩

abbrev nBuf : Space → Nat
  | .hbm => 2
  | .vmem => 5
  | .smem => 0
  | _ => 0

abbrev bufTy : (tb : Table) → Fin (tcTables nBuf tb) → BufTy
  | .hbm, ⟨0, _⟩ => ⟨S16x512x64x128, .f32⟩
  | .hbm, ⟨1, _⟩ => ⟨S16x512x64x128, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x64x128, .f32⟩
  | .local _ .vmem, ⟨3, _⟩ => ⟨S1x64x64x128, .f32⟩
  | .local _ .vmem, ⟨4, _⟩ => ⟨S1x1x64x128, .f32⟩
  | _, _ => ⟨S16x512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x64x128_S1x1x64x128_0_0_0_0 : ∀ a, (![0, 0, 0, 0] : Fin 4 → Nat) a + S1x1x64x128.size a ≤ S1x1x64x128.size a
  h_S1x1x64x128 : 0 < S1x1x64x128.numel
  shapeCasts_S1x1x64x128_S1x1x64x128 : S1x1x64x128.ShapeCasts S1x1x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  slices_S1x64x64x128_o0_0_0_0_S1x63x64x128 : S1x64x64x128.Slices ![0, 0, 0, 0] S1x63x64x128
  concatenates_S1x1x64x128_S1x63x64x128_S1x64x64x128_d1 : Shape.Concatenates [S1x1x64x128, S1x63x64x128] S1x64x64x128 1
  slices_S1x64x64x128_o0_0_0_0_S1x62x64x128 : S1x64x64x128.Slices ![0, 0, 0, 0] S1x62x64x128
  concatenates_S1x2x64x128_S1x62x64x128_S1x64x64x128_d1 : Shape.Concatenates [S1x2x64x128, S1x62x64x128] S1x64x64x128 1
  slices_S1x64x64x128_o0_0_0_0_S1x60x64x128 : S1x64x64x128.Slices ![0, 0, 0, 0] S1x60x64x128
  concatenates_S1x4x64x128_S1x60x64x128_S1x64x64x128_d1 : Shape.Concatenates [S1x4x64x128, S1x60x64x128] S1x64x64x128 1
  slices_S1x64x64x128_o0_0_0_0_S1x56x64x128 : S1x64x64x128.Slices ![0, 0, 0, 0] S1x56x64x128
  concatenates_S1x8x64x128_S1x56x64x128_S1x64x64x128_d1 : Shape.Concatenates [S1x8x64x128, S1x56x64x128] S1x64x64x128 1
  slices_S1x64x64x128_o0_0_0_0_S1x48x64x128 : S1x64x64x128.Slices ![0, 0, 0, 0] S1x48x64x128
  concatenates_S1x16x64x128_S1x48x64x128_S1x64x64x128_d1 : Shape.Concatenates [S1x16x64x128, S1x48x64x128] S1x64x64x128 1
  slices_S1x64x64x128_o0_0_0_0_S1x32x64x128 : S1x64x64x128.Slices ![0, 0, 0, 0] S1x32x64x128
  concatenates_S1x32x64x128_S1x32x64x128_S1x64x64x128_d1 : Shape.Concatenates [S1x32x64x128, S1x32x64x128] S1x64x64x128 1
  broadcasts_S1x1x64x128_S1x64x64x128 : S1x1x64x128.Broadcasts S1x64x64x128
  slices_S1x64x64x128_o0_63_0_0_S1x1x64x128 : S1x64x64x128.Slices ![0, 63, 0, 0] S1x1x64x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S16x512x64x128.size a
  hwx0_0 : ∀ i : grid0.Coords, EltTy.bits .f32 = 32 ∨ (Rect.block (s := S16x512x64x128) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S16x512x64x128.size a
  hwx0_1 : ∀ i : grid0.Coords, EltTy.bits .f32 = 32 ∨ (Rect.block (s := S16x512x64x128) S1x64x64x128.size (cc0_transform_1 i) (hinb0_1 i)).WholeWords (EltTy.packing .f32)

variable [Facts₀]

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x64x128 : Shape := ⟨4, ![16, 512, 64, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x512x64x128, .f32⟩
  | .hbm, ⟨1, _⟩ => ⟨S_, .f32⟩
  | .hbm, ⟨2, _⟩ => ⟨S_, .f32⟩
  | .hbm, ⟨3, _⟩ => ⟨S16x512x64x128, .f32⟩
  | _, _ => ⟨S16x512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512x64x128_S16x512x64x128_w1s1p0_0_w512s1p511_0_w1s1p0_0_w1s1p0_0 : S16x512x64x128.ReduceWindows (![1, 512, 1, 1] : Fin 4 → Nat) ![1, 1, 1, 1] ![0, 511, 0, 0] ![0, 0, 0, 0] S16x512x64x128
  h_S_ : 0 < S_.numel

variable [Facts₀]

class Facts : Prop extends Facts₀ where

variable [Facts]
-- ==== Proof.Scan.lean ====
/-
  A running maximum as a least upper bound.

  Over the extended reals a running maximum along one axis is characterised by its upper bounds: the value at
  position `r` lies below `y` exactly when every entry at a position `r' ≤ r` does.  Two values with the same
  upper bounds are equal, so every way of computing the running maximum — a left fold from `-∞`, a log-depth
  doubling scan inside a tile combined with the carried maximum of the tiles before it — is the same function.

  This module holds the part that mentions no program: the doubling scan of one tile of shape [1, 64, 64, 128]
  along its axis of extent 64.  One step shifts the tile down by `o` rows, fills the first `o` rows with `-∞`,
  and takes the pointwise maximum with the unshifted tile; if the tile held the maxima over windows of `w ≥ o`
  rows, it now holds the maxima over windows of `w + o` rows.
-/
import Idealize.ShloMosaic.PureOps.Ideal
import Idealize.ShloMosaic.Lib.ValueIdx
import Idealize.ShloMosaic.Lib.Pipeline.Value

noncomputable section

namespace Cert.Scan

open Idealize.ShloMosaic Idealize.ShloMosaic.ValueIdx

/-- One tile: 64 rows of a [64, 128] plane. -/
abbrev Tile : Shape := ⟨4, ![1, 64, 64, 128]⟩
/-- One row of a tile. -/
abbrev Row : Shape := ⟨4, ![1, 1, 64, 128]⟩

/-- Two extended reals with the same upper bounds are equal. -/
theorem eq_of_forall_le_iff {a b : EReal} (h : ∀ y : EReal, a ≤ y ↔ b ≤ y) : a = b :=
  le_antisymm ((h b).2 le_rfl) ((h a).1 le_rfl)

/-- The f32 pattern of `-∞` denotes the least extended real. -/
theorem negInf : FloatOps.ofBits (F := Ideal) .f32 0xFF800000#32 = (⊥ : EReal) := by
  show Ideal.ofBits .f32 0xFF800000#32 = ⊥
  simp [Ideal.ofBits, Ideal.ieee]

/-- The tile shifted down by `o` rows along axis 1, the first `o` rows filled with `bot`: at row `r` it reads `bot` when
    `r < o` and the tile's row `r - o` otherwise. -/
theorem shifted_apply {α : Type} (o q : Nat) (hq : o + q = 64) (bot : α) (x : Tile.Idx → α)
    (hs : Tile.Slices ![0, 0, 0, 0] (⟨4, ![1, q, 64, 128]⟩ : Shape))
    (hc : Shape.Concatenates [(⟨4, ![1, o, 64, 128]⟩ : Shape), (⟨4, ![1, q, 64, 128]⟩ : Shape)] Tile 1)
    (a : Fin 1) (r : Fin 64) (h : Fin 64) (c : Fin 128) :
    concatenate Tile 1 [⟨(⟨4, ![1, o, 64, 128]⟩ : Shape), broadcast (⟨4, ![1, o, 64, 128]⟩ : Shape) bot⟩,
        ⟨(⟨4, ![1, q, 64, 128]⟩ : Shape), extractStridedSlice (⟨4, ![1, q, 64, 128]⟩ : Shape) ![0, 0, 0, 0] x hs⟩] hc (ix4 a r h c)
      = if hlt : r.val < o then bot else x (ix4 a ⟨r.val - o, by omega⟩ h c) := by
  by_cases hlt : r.val < o
  · rw [dif_pos hlt]
    exact concatenate_pair_apply_left (t := Tile) (s₁ := (⟨4, ![1, o, 64, 128]⟩ : Shape)) (s₂ := (⟨4, ![1, q, 64, 128]⟩ : Shape))
      (1 : Fin 4) _ _ hc (ix4 a r h c) rfl
      (ix4 a (⟨r.val, hlt⟩ : Fin o) h c : (⟨4, ![1, o, 64, 128]⟩ : Shape).Idx)
      (fun b => by match b with | ⟨0, _⟩ => rfl | ⟨1, _⟩ => rfl | ⟨2, _⟩ => rfl | ⟨3, _⟩ => rfl)
  · rw [dif_neg hlt]
    have hq' : r.val - o < q := by have := r.isLt; omega
    refine (concatenate_pair_apply_right (t := Tile) (s₁ := (⟨4, ![1, o, 64, 128]⟩ : Shape)) (s₂ := (⟨4, ![1, q, 64, 128]⟩ : Shape))
      (1 : Fin 4) _ _ hc (ix4 a r h c) rfl rfl
      (ix4 a (⟨r.val - o, hq'⟩ : Fin q) h c : (⟨4, ![1, q, 64, 128]⟩ : Shape).Idx)
      (fun b hb => by
        match b with
        | ⟨0, _⟩ => rfl
        | ⟨1, _⟩ => exact absurd rfl hb
        | ⟨2, _⟩ => rfl
        | ⟨3, _⟩ => rfl)
      (by show r.val - o + o = r.val; omega)).trans ?_
    exact extractStridedSlice_apply (s := Tile) (t := (⟨4, ![1, q, 64, 128]⟩ : Shape)) ![0, 0, 0, 0] x hs
      (ix4 a (⟨r.val - o, hq'⟩ : Fin q) h c : (⟨4, ![1, q, 64, 128]⟩ : Shape).Idx)
      (ix4 a (⟨r.val - o, by omega⟩ : Fin 64) h c : Tile.Idx)
      (fun b => by
        match b with
        | ⟨0, _⟩ => exact (Nat.zero_add _).symm
        | ⟨1, _⟩ => exact (Nat.zero_add _).symm
        | ⟨2, _⟩ => exact (Nat.zero_add _).symm
        | ⟨3, _⟩ => exact (Nat.zero_add _).symm)

/-- `v` holds, at each row `r`, the maximum of `x` over the rows `r'` with `r' ≤ r < r' + w` (same plane position):
    stated by its upper bounds. -/
def WinMax (w : Nat) (x v : FVec Ideal Tile .f32) : Prop :=
  ∀ (a : Fin 1) (r : Fin 64) (h : Fin 64) (c : Fin 128) (y : EReal),
    v (ix4 a r h c) ≤ y ↔ ∀ r' : Fin 64, r'.val ≤ r.val → r.val < r'.val + w → x (ix4 a r' h c) ≤ y

/-- A tile holds its own maxima over windows of one row. -/
theorem WinMax.base (x : FVec Ideal Tile .f32) : WinMax 1 x x := by
  intro a r h c y
  constructor
  · intro H r' h1 h2
    obtain rfl : r' = r := Fin.ext (by omega)
    exact H
  · intro H
    exact H r le_rfl (by omega)

/-- One doubling step: from windows of `w` rows to windows of `w + o` rows, for a shift `o ≤ w`. -/
theorem WinMax.step {w : Nat} {x v : FVec Ideal Tile .f32} (hv : WinMax w x v) (o q : Nat) (hq : o + q = 64)
    (how : o ≤ w) (bot : Ideal .f32) (hbot : bot = (⊥ : EReal))
    (hs : Tile.Slices ![0, 0, 0, 0] (⟨4, ![1, q, 64, 128]⟩ : Shape))
    (hc : Shape.Concatenates [(⟨4, ![1, o, 64, 128]⟩ : Shape), (⟨4, ![1, q, 64, 128]⟩ : Shape)] Tile 1) :
    WinMax (w + o) x (maximumf v (concatenate Tile 1
      [⟨(⟨4, ![1, o, 64, 128]⟩ : Shape), broadcast (⟨4, ![1, o, 64, 128]⟩ : Shape) bot⟩,
        ⟨(⟨4, ![1, q, 64, 128]⟩ : Shape), extractStridedSlice (⟨4, ![1, q, 64, 128]⟩ : Shape) ![0, 0, 0, 0] v hs⟩] hc)) := by
  intro a r h c y
  rw [maximumf_apply, max_le_iff, shifted_apply o q hq bot v hs hc a r h c, hv a r h c y]
  by_cases hlt : r.val < o
  · rw [dif_pos hlt, hbot]
    constructor
    · rintro ⟨H, -⟩ r' h1 _
      exact H r' h1 (by omega)
    · intro H
      exact ⟨fun r' h1 _ => H r' h1 (by omega), bot_le⟩
  · rw [dif_neg hlt, hv a ⟨r.val - o, by omega⟩ h c y]
    constructor
    · rintro ⟨H1, H2⟩ r' h1 h2
      by_cases hr : r.val < r'.val + w
      · exact H1 r' h1 hr
      · exact H2 r' (by show r'.val ≤ r.val - o; omega) (by show r.val - o < r'.val + w; omega)
    · intro H
      refine ⟨fun r' h1 h2 => H r' h1 (by omega), fun r' h1 h2 => ?_⟩
      have h1' : r'.val ≤ r.val - o := h1
      have h2' : r.val - o < r'.val + w := h2
      exact H r' (by omega) (by omega)

/-- Windows of 64 or more rows reach back to the tile's first row: the running maximum of the tile. -/
theorem WinMax.full {w : Nat} {x v : FVec Ideal Tile .f32} (hv : WinMax w x v) (hw : 64 ≤ w)
    (a : Fin 1) (r : Fin 64) (h : Fin 64) (c : Fin 128) (y : EReal) :
    v (ix4 a r h c) ≤ y ↔ ∀ r' : Fin 64, r'.val ≤ r.val → x (ix4 a r' h c) ≤ y := by
  rw [hv a r h c y]
  constructor
  · intro H r' h1
    exact H r' h1 (by have := r.isLt; omega)
  · intro H r' h1 _
    exact H r' h1

end Cert.Scan

end
-- ==== Proof.Cummax.lean ====
/-
  The running maximum of a [16, 512, 64, 128] array along its axis of extent 512, and the host's windowed reduction.

  `cummax X` at `(b, t, h, c)` is the least upper bound of `X (b, t', h, c)` over `t' ≤ t`.  The host computes it as
  a windowed reduction: a window of 512 positions along axis 1, the array padded by 511 positions of `-∞` below, so
  that the window ending at `t` covers the positions `t - 511 … t`, of which those below 0 are padding; folding `max`
  from `-∞` over the window gives the least upper bound of the entries `0 … t`.
-/
import Idealize.ShloMosaic.PureOps.Ideal
import Idealize.ShloMosaic.PureOps.Contract
import Idealize.ShloMosaic.Lib.ValueIdx
import proofs.«161369_j70927089926350_1_alg».proof.Proof.Scan

noncomputable section

namespace Cert.Scan

open Idealize.ShloMosaic Idealize.ShloMosaic.ValueIdx

/-- The window's positions: 512 along axis 1. -/
abbrev Win : Shape := ⟨4, ![1, 512, 1, 1]⟩

/-- The whole array. -/
abbrev Arr : Shape := ⟨4, ![16, 512, 64, 128]⟩

/-- The running maximum along axis 1. -/
def cummax (X : FVec Ideal Arr .f32) : FVec Ideal Arr .f32 := fun i =>
  (Finset.univ.filter fun t' : Fin 512 => t'.val ≤ (i 1).val).sup
    fun t' => X (ix4 (i 0 : Fin 16) t' (i 2 : Fin 64) (i 3 : Fin 128))

/-- The running maximum by its upper bounds. -/
theorem cummax_le_iff (X : FVec Ideal Arr .f32) (b : Fin 16) (t : Fin 512) (h : Fin 64) (c : Fin 128) (y : EReal) :
    cummax X (ix4 b t h c) ≤ y ↔ ∀ t' : Fin 512, t'.val ≤ t.val → X (ix4 b t' h c) ≤ y := by
  unfold cummax
  rw [Finset.sup_le_iff]
  simp only [Finset.mem_filter, Finset.mem_univ, true_and]

/-- A left fold of `max` lies below `y` exactly when its start and every folded term do. -/
theorem foldl_max_le_iff {ι : Type} (g : ι → EReal) (l : List ι) (v y : EReal) :
    l.foldl (fun r n => max r (g n)) v ≤ y ↔ v ≤ y ∧ ∀ n ∈ l, g n ≤ y := by
  induction l generalizing v with
  | nil => simp
  | cons n l ih =>
    rw [List.foldl_cons, ih, max_le_iff]
    simp only [List.mem_cons, forall_eq_or_imp]
    exact and_assoc

/-- The host's windowed `max`-reduction (window 512 along axis 1, 511 positions of padding below, from `-∞`) is the
    running maximum. -/
theorem reduceWindow_eq_cummax (X : FVec Ideal Arr .f32) (init : (⟨0, ![]⟩ : Shape).Idx → Ideal .f32)
    (hinit : ∀ i, init i = (⊥ : EReal))
    (hw : Arr.ReduceWindows ![1, 512, 1, 1] ![1, 1, 1, 1] ![0, 511, 0, 0] ![0, 0, 0, 0] Arr)
    (hu : 0 < (⟨0, ![]⟩ : Shape).numel) :
    Host.reduceWindow (FloatOps.maximumf (F := Ideal) (φ := .f32)) ![1, 512, 1, 1] ![1, 1, 1, 1] ![0, 511, 0, 0]
      ![0, 0, 0, 0] X init hw hu = cummax X := by
  funext i
  obtain ⟨b, t, h, c, rfl⟩ : ∃ (b : Fin 16) (t : Fin 512) (h : Fin 64) (c : Fin 128), i = ix4 b t h c :=
    ⟨i 0, i 1, i 2, i 3, eq_ix4 i⟩
  refine eq_of_forall_le_iff fun y => ?_
  rw [cummax_le_iff]
  unfold Host.reduceWindow
  dsimp only
  refine (foldl_max_le_iff _ _ _ y).trans ?_
  rw [hinit]
  simp only [bot_le, true_and, List.mem_finRange, forall_true_left]
  constructor
  · intro H t' ht'
    -- the window position that reads entry `t'`: `t' + 511 - t`
    have hk : t'.val + 511 - t.val < 512 := by have := t.isLt; omega
    have H' := H (Win.rowMajor (ix4 (0 : Fin 1) (⟨t'.val + 511 - t.val, hk⟩ : Fin 512) (0 : Fin 1) (0 : Fin 1)))
    simp only [Equiv.symm_apply_apply] at H'
    split at H'
    · refine (le_of_eq (congrArg X (funext fun a => Fin.ext ?_))).trans H'
      match a with
      | ⟨0, _⟩ => show b.val = b.val * 1 + 0 - 0; omega
      | ⟨1, _⟩ => show t'.val = t.val * 1 + (t'.val + 511 - t.val) - 511; omega
      | ⟨2, _⟩ => show h.val = h.val * 1 + 0 - 0; omega
      | ⟨3, _⟩ => show c.val = c.val * 1 + 0 - 0; omega
    · next hnin =>
      refine absurd (fun a => ?_) hnin
      match a with
      | ⟨0, _⟩ => show 0 ≤ b.val * 1 + 0 ∧ b.val * 1 + 0 - 0 < 16; have := b.isLt; omega
      | ⟨1, _⟩ =>
        show 511 ≤ t.val * 1 + (t'.val + 511 - t.val) ∧ t.val * 1 + (t'.val + 511 - t.val) - 511 < 512
        have := t'.isLt; omega
      | ⟨2, _⟩ => show 0 ≤ h.val * 1 + 0 ∧ h.val * 1 + 0 - 0 < 64; have := h.isLt; omega
      | ⟨3, _⟩ => show 0 ≤ c.val * 1 + 0 ∧ c.val * 1 + 0 - 0 < 128; have := c.isLt; omega
  · intro H n
    have k0 : (Win.rowMajor.symm n 0).val < 1 := (Win.rowMajor.symm n 0).isLt
    have k1 : (Win.rowMajor.symm n 1).val < 512 := (Win.rowMajor.symm n 1).isLt
    have k2 : (Win.rowMajor.symm n 2).val < 1 := (Win.rowMajor.symm n 2).isLt
    have k3 : (Win.rowMajor.symm n 3).val < 1 := (Win.rowMajor.symm n 3).isLt
    split
    · next hin =>
      have h1 : 511 ≤ t.val * 1 + (Win.rowMajor.symm n 1).val
          ∧ t.val * 1 + (Win.rowMajor.symm n 1).val - 511 < 512 := hin 1
      refine (le_of_eq (congrArg X (funext fun a => Fin.ext ?_))).trans
        (H ⟨t.val * 1 + (Win.rowMajor.symm n 1).val - 511, h1.2⟩ (by show _ - 511 ≤ t.val; omega))
      match a with
      | ⟨0, _⟩ => show b.val * 1 + (Win.rowMajor.symm n 0).val - 0 = b.val; omega
      | ⟨1, _⟩ => rfl
      | ⟨2, _⟩ => show h.val * 1 + (Win.rowMajor.symm n 2).val - 0 = h.val; omega
      | ⟨3, _⟩ => show c.val * 1 + (Win.rowMajor.symm n 3).val - 0 = c.val; omega
    · exact bot_le

end Cert.Scan

end
-- ==== Proof.Pieces.lean ====
/-
  What each case of the body leaves in the output tile and in the carried row, as the body's arithmetic.

  At a point that starts a new run along the scanned axis the body first stores the row of `-∞` into the carried row and
  reads it back; at every other point it reads the row the point before left.  Either way it stores one whole output
  tile and then one whole carried row, so what the buffers hold afterwards are those two stores' values.
-/
import proofs.«161369_j70927089926350_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0, 0, 0] : Fin 4 → Nat) = fun _ => 0 := funext fun a => by fin_cases a <;> rfl

/-- A point inside a run: the output tile is the stored tile of the input tile and the row carried in. -/
theorem out_B (c : Dev nD) (i : grid0.Coords) (a2 : Memref sig .tc .vmem S1x64x64x128 .f32) (h2 : a2.IsWhole)
    (a3 : Memref sig .tc .vmem S1x64x64x128 .f32) (h3 : a3.IsWhole) (a4 : Memref sig .tc .vmem S1x1x64x128 .f32)
    (h4 : a4.IsWhole) (hc : ¬cond0_0 i) (x : Vec F S1x64x64x128 .f32) (xs : Vec F S1x1x64x128 .f32) :
    out0_B_1 c i a2 h2 a3 h3 a4 h4 hc x xs = k0_pay3 x xs := by
  unfold out0_B_1
  rw [View.read_writes_eq_canon _ _ _ (cover0_B_1 c i a2 h2 a3 h3 a4 h4 hc x xs)]
  unfold kernelRun0_B
  dsimp only
  sl_unfold_words
  rw [View.canon_unit_zero hz]
  simp only [View.readAt_eq_ld, h2.read_unread, h4.read_unread, View.ld_unit_zero (S := S1x64x64x128) hz,
    View.ld_unit_zero (S := S1x1x64x128) hz]

/-- A point inside a run: the carried row is row 63 of the stored tile. -/
theorem sout_B (c : Dev nD) (i : grid0.Coords) (a2 : Memref sig .tc .vmem S1x64x64x128 .f32) (h2 : a2.IsWhole)
    (a3 : Memref sig .tc .vmem S1x64x64x128 .f32) (h3 : a3.IsWhole) (a4 : Memref sig .tc .vmem S1x1x64x128 .f32)
    (h4 : a4.IsWhole) (hc : ¬cond0_0 i) (x : Vec F S1x64x64x128 .f32) (xs : Vec F S1x1x64x128 .f32) :
    sout0_B_0 c i a2 h2 a3 h3 a4 h4 hc x xs = k0_pay1 (k0_pay4 x xs) := by
  unfold sout0_B_0
  rw [View.read_writes_eq_canon _ _ _ (scover0_B_0 c i a2 h2 a3 h3 a4 h4 hc x xs)]
  unfold kernelRun0_B
  dsimp only
  sl_unfold_words
  rw [View.canon_unit_zero hz]
  simp only [View.readAt_eq_ld, h2.read_unread, h4.read_unread, View.ld_unit_zero (S := S1x64x64x128) hz,
    View.ld_unit_zero (S := S1x1x64x128) hz]

/-- A point that starts a run: the output tile is the stored tile of the input tile and the row of `-∞`. -/
theorem out_A (c : Dev nD) (i : grid0.Coords) (a2 : Memref sig .tc .vmem S1x64x64x128 .f32) (h2 : a2.IsWhole)
    (a3 : Memref sig .tc .vmem S1x64x64x128 .f32) (h3 : a3.IsWhole) (a4 : Memref sig .tc .vmem S1x1x64x128 .f32)
    (h4 : a4.IsWhole) (hc : cond0_0 i) (x : Vec F S1x64x64x128 .f32) :
    out0_A_1 c i a2 h2 a3 h3 a4 h4 hc x = k0_pay3 x (k0_pay2 (F := F)) := by
  unfold out0_A_1
  rw [View.read_writes_eq_canon _ _ _ (cover0_A_1 c i a2 h2 a3 h3 a4 h4 hc x)]
  unfold kernelRun0_A
  dsimp only
  sl_unfold_words
  rw [View.canon_unit_zero hz]
  simp only [View.readAt_eq_ld, h2.read_unread, View.ld_unit_zero (S := S1x64x64x128) hz,
    View.readCov_unit_zero (S := S1x1x64x128) _ hz]

/-- A point that starts a run: the carried row is row 63 of that stored tile. -/
theorem sout_A (c : Dev nD) (i : grid0.Coords) (a2 : Memref sig .tc .vmem S1x64x64x128 .f32) (h2 : a2.IsWhole)
    (a3 : Memref sig .tc .vmem S1x64x64x128 .f32) (h3 : a3.IsWhole) (a4 : Memref sig .tc .vmem S1x1x64x128 .f32)
    (h4 : a4.IsWhole) (hc : cond0_0 i) (x : Vec F S1x64x64x128 .f32) :
    sout0_A_0 c i a2 h2 a3 h3 a4 h4 hc x = k0_pay1 (k0_pay4 x (k0_pay2 (F := F))) := by
  unfold sout0_A_0
  rw [View.read_writes_eq_canon _ _ _ (scover0_A_0 c i a2 h2 a3 h3 a4 h4 hc x)]
  unfold kernelRun0_A
  dsimp only
  sl_unfold_words
  rw [View.canon_cons_unit_zero (S := S1x1x64x128) hz]
  simp only [View.readAt_eq_ld, h2.read_unread, View.ld_unit_zero (S := S1x64x64x128) hz,
    View.readCov_unit_zero (S := S1x1x64x128) _ hz]

end Cert.KernelIdeal.Pieces

end
-- ==== Proof.TileValue.lean ====
/-
  What the body computes from one input tile and the carried row, at the ideal values.

  The body runs six doubling steps (shifts 1, 2, 4, 8, 16, 32) on the input tile `x` of 64 rows, which leaves the
  running maximum of the tile along its rows, and then takes the pointwise maximum with the carried row `cr`
  broadcast over the 64 rows.  So the stored tile at row `r` is the least upper bound of `x`'s rows `0 … r` and of
  `cr`; the row it carries on is that at row 63: the least upper bound of the whole tile and of `cr`.
-/
import proofs.«161369_j70927089926350_1_alg».proof.Proof.Gen.KernelIdeal.Skeleton
import proofs.«161369_j70927089926350_1_alg».proof.Proof.Scan

noncomputable section

namespace Cert.KernelIdeal.TileValue

open Idealize.ShloMosaic Idealize.ShloMosaic.ValueIdx Cert.KernelIdeal Cert.KernelIdeal.Gen Cert.Scan

/-- The stored tile by its upper bounds: at row `r` it lies below `y` exactly when the input tile's rows `0 … r` and
    the carried row do. -/
theorem stored_le_iff (x : FVec Ideal S1x64x64x128 .f32) (cr : FVec Ideal S1x1x64x128 .f32)
    (a : Fin 1) (r : Fin 64) (h : Fin 64) (c : Fin 128) (y : EReal) :
    k0_pay3 (F := Ideal) x cr (ix4 a r h c) ≤ y
      ↔ (∀ r' : Fin 64, r'.val ≤ r.val → x (ix4 a r' h c) ≤ y) ∧ cr (ix4 a 0 h c) ≤ y := by
  have H := ((((((WinMax.base x).step 1 63 rfl le_rfl _ negInf slices_S1x64x64x128_o0_0_0_0_S1x63x64x128
      concatenates_S1x1x64x128_S1x63x64x128_S1x64x64x128_d1).step 2 62 rfl le_rfl _ negInf
      slices_S1x64x64x128_o0_0_0_0_S1x62x64x128 concatenates_S1x2x64x128_S1x62x64x128_S1x64x64x128_d1).step 4 60 rfl
      le_rfl _ negInf slices_S1x64x64x128_o0_0_0_0_S1x60x64x128
      concatenates_S1x4x64x128_S1x60x64x128_S1x64x64x128_d1).step 8 56 rfl le_rfl _ negInf
      slices_S1x64x64x128_o0_0_0_0_S1x56x64x128 concatenates_S1x8x64x128_S1x56x64x128_S1x64x64x128_d1).step 16 48 rfl
      le_rfl _ negInf slices_S1x64x64x128_o0_0_0_0_S1x48x64x128
      concatenates_S1x16x64x128_S1x48x64x128_S1x64x64x128_d1).step 32 32 rfl le_rfl _ negInf
      slices_S1x64x64x128_o0_0_0_0_S1x32x64x128 concatenates_S1x32x64x128_S1x32x64x128_S1x64x64x128_d1
  unfold k0_pay3
  rw [maximumf_apply, max_le_iff, H.full (by norm_num) a r h c y]
  obtain rfl : a = 0 := Subsingleton.elim a 0
  rw [broadcastTo_apply cr broadcasts_S1x1x64x128_S1x64x64x128 (ix4 0 r h c) (ix4 0 0 h c)
    (fun b => by
      match b with
      | ⟨0, _⟩ => exact (if_pos rfl).symm
      | ⟨1, _⟩ => exact (if_pos rfl).symm
      | ⟨2, _⟩ => exact (if_neg (show ¬((64 : Nat) = 1) by decide)).symm
      | ⟨3, _⟩ => exact (if_neg (show ¬((128 : Nat) = 1) by decide)).symm)]

/-- The row carried on is row 63 of the stored tile. -/
theorem carried_apply (x : FVec Ideal S1x64x64x128 .f32) (cr : FVec Ideal S1x1x64x128 .f32)
    (a : Fin 1) (h : Fin 64) (c : Fin 128) :
    k0_pay1 (F := Ideal) (k0_pay4 (F := Ideal) x cr) (ix4 a 0 h c) = k0_pay3 (F := Ideal) x cr (ix4 a 63 h c) := by
  unfold k0_pay1 k0_pay4
  dsimp only
  rw [shapeCast_self]
  exact extractStridedSlice_apply ![0, 63, 0, 0] _ slices_S1x64x64x128_o0_63_0_0_S1x1x64x128 (ix4 a 0 h c) (ix4 a 63 h c)
    (fun b => by
      match b with
      | ⟨0, _⟩ => exact (Nat.zero_add _).symm
      | ⟨1, _⟩ => rfl
      | ⟨2, _⟩ => exact (Nat.zero_add _).symm
      | ⟨3, _⟩ => exact (Nat.zero_add _).symm)

/-- The carried row by its upper bounds: the whole input tile's column and the row carried in. -/
theorem carried_le_iff (x : FVec Ideal S1x64x64x128 .f32) (cr : FVec Ideal S1x1x64x128 .f32)
    (a : Fin 1) (h : Fin 64) (c : Fin 128) (y : EReal) :
    k0_pay1 (F := Ideal) (k0_pay4 (F := Ideal) x cr) (ix4 a 0 h c) ≤ y
      ↔ (∀ r' : Fin 64, x (ix4 a r' h c) ≤ y) ∧ cr (ix4 a 0 h c) ≤ y := by
  rw [carried_apply, stored_le_iff]
  constructor
  · rintro ⟨H, Hc⟩
    exact ⟨fun r' => H r' (by have := r'.isLt; show r'.val ≤ 63; omega), Hc⟩
  · rintro ⟨H, Hc⟩
    exact ⟨fun r' _ => H r', Hc⟩

/-- The row the reset stores is `-∞` everywhere. -/
theorem reset_apply (j : S1x1x64x128.Idx) : k0_pay2 (F := Ideal) j = (⊥ : EReal) := by
  unfold k0_pay2
  rw [shapeCast_self]
  exact negInf

end Cert.KernelIdeal.TileValue

end
-- ==== Proof.RunValue.lean ====
/-
  The kernel's result array is the running maximum of its argument along the axis of extent 512.

  The grid has 16 × 8 points, visited with the second coordinate fastest: point `n` works on batch `n / 8` and on the
  rows `64·(n % 8) … 64·(n % 8) + 63` of that batch.  By induction on the point, the row carried out of point `n` is the
  least upper bound of the batch's rows `0 … 64·(n % 8) + 63` (a point with `n % 8 = 0` starts from `-∞`, every other
  point from the row the point before carried out, which belongs to the same batch).  Hence the tile written back at
  point `n`, at its row `r`, is the least upper bound of the batch's rows `0 … 64·(n % 8) + r`: the running maximum
  of the argument at that position.  The 128 tiles cover the array.
-/
import proofs.«161369_j70927089926350_1_alg».proof.Proof.Gen.KernelIdeal.Value
import proofs.«161369_j70927089926350_1_alg».proof.Proof.Pieces
import proofs.«161369_j70927089926350_1_alg».proof.Proof.TileValue
import proofs.«161369_j70927089926350_1_alg».proof.Proof.Cummax

noncomputable section

namespace Cert.KernelIdeal.RunValue

open Cert.KernelIdeal Cert.KernelIdeal.Gen Idealize.ShloMosaic Idealize.ShloMosaic.TcCoe Idealize.SL.Sem
open Idealize.ShloMosaic.ValueIdx Cert.Scan Cert.KernelIdeal.Pieces Cert.KernelIdeal.TileValue
open Idealize.ShloMosaic.Pipeline (Dat)

variable (m : (ℓ : Loc nD τ sig) → Buf (Elt Ideal) ℓ) (ρ : Dev nD → PrngReg)

/-- The argument array as the region finds it. -/
abbrev xarr (c : Dev nD) : FVec Ideal S16x512x64x128 .f32 := V m c main_arg0

/-- The input tile at point `t`. -/
abbrev xblk (c : Dev nD) (t : Fin cfg0.N) : FVec Ideal S1x64x64x128 .f32 := iblk m c 0 t

theorem hN : cfg0.N = 128 := N_0

/-- The batch point `t` works on. -/
abbrev bOf (t : Fin cfg0.N) : Fin 16 := ⟨t.val / 8, by have h1 := t.isLt; have h2 := hN; omega⟩

/-- The array row under row `r` of point `t`'s tiles. -/
abbrev rowOf (t : Fin cfg0.N) (r : Fin 64) : Fin 512 := ⟨64 * (t.val % 8) + r.val, by have := r.isLt; omega⟩

/-- The printed index maps of both windows over the grid: block `(t / 8, t % 8, 0, 0)`. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = t.val % 8
    ∧ win0_1.index t (2 : Fin 4) = 0 ∧ win0_1.index t (3 : Fin 4) = 0 :=
  (by decide +kernel : ∀ t : Fin grid0.N, _)

/-- The input tile at point `t` reads the argument at batch `t / 8`, rows `64·(t % 8) + r`. -/
theorem xblk_apply (c : Dev nD) (t : Fin cfg0.N) (a : Fin 1) (r : Fin 64) (h : Fin 64) (cc : Fin 128) :
    xblk m c t (ix4 a r h cc) = xarr m c (ix4 (bOf t) (rowOf t r) h cc) := by
  obtain ⟨e0, e1, e2, e3, -⟩ := idx_facts t
  show V m c main_arg0 (((cfg0.win 0).blk t).view.emb (ix4 a r h cc)) = V m c main_arg0 (ix4 (bOf t) (rowOf t r) h cc)
  refine congrArg (V m c main_arg0) (funext fun b => Fin.ext ?_)
  match b with
  | ⟨0, _⟩ => show win0_0.index t (0 : Fin 4) * 1 + 1 * a.val = t.val / 8; have := a.isLt; omega
  | ⟨1, _⟩ => show win0_0.index t (1 : Fin 4) * 64 + 1 * r.val = 64 * (t.val % 8) + r.val; omega
  | ⟨2, _⟩ => show win0_0.index t (2 : Fin 4) * 64 + 1 * h.val = h.val; omega
  | ⟨3, _⟩ => show win0_0.index t (3 : Fin 4) * 128 + 1 * cc.val = cc.val; omega

/-! ## The carried row, point by point -/

/-- A point that starts a batch carries out the least upper bound of its own tile. -/
theorem carry_A (c : Dev nD) (n : ℕ) (hn : n < cfg0.N) (h0 : n % 8 = 0) (h : Fin 64) (cc : Fin 128) (y : EReal) :
    ((outsAt0 m c n hn).2 (ix4 0 0 h cc) : EReal) ≤ y ↔ ∀ r' : Fin 64, xblk m c ⟨n, hn⟩ (ix4 0 r' h cc) ≤ y := by
  rw [outsAt0_A m c ⟨n, hn⟩ h0]
  dsimp only
  rw [sout_A (F := Ideal) c (grid0.coords ⟨n, hn⟩) (ms0_0 ⟨n, hn⟩) (hs0_0 ⟨n, hn⟩) (ms0_1 ⟨n, hn⟩) (hs0_1 ⟨n, hn⟩) scM0_0
    (Memref.isWhole_whole _) ((hcond0_0 ⟨n, hn⟩).mpr h0) (xblk m c ⟨n, hn⟩)]
  rw [carried_le_iff (xblk m c ⟨n, hn⟩) (k0_pay2 (F := Ideal)) 0 h cc y, reset_apply]
  exact and_iff_left bot_le

/-- Any other point carries out the least upper bound of its own tile and of the row carried in. -/
theorem carry_B (c : Dev nD) (n : ℕ) (hn : n < cfg0.N) (h0 : ¬n % 8 = 0) (h : Fin 64) (cc : Fin 128) (y : EReal) :
    ((outsAt0 m c n hn).2 (ix4 0 0 h cc) : EReal) ≤ y
      ↔ (∀ r' : Fin 64, xblk m c ⟨n, hn⟩ (ix4 0 r' h cc) ≤ y)
        ∧ ((outsAt0 m c (n - 1) (Nat.lt_of_le_of_lt (Nat.sub_le _ _) hn)).2 (ix4 0 0 h cc) : EReal) ≤ y := by
  rw [outsAt0_B m c ⟨n, hn⟩ h0]
  dsimp only
  rw [sout_B (F := Ideal) c (grid0.coords ⟨n, hn⟩) (ms0_0 ⟨n, hn⟩) (hs0_0 ⟨n, hn⟩) (ms0_1 ⟨n, hn⟩) (hs0_1 ⟨n, hn⟩) scM0_0
    (Memref.isWhole_whole _) (fun h => h0 ((hcond0_0 ⟨n, hn⟩).mp h)) (xblk m c ⟨n, hn⟩)
    (outsAt0 m c (n - 1) (Nat.lt_of_le_of_lt (Nat.sub_le _ _) hn)).2]
  rw [carried_le_iff (xblk m c ⟨n, hn⟩) (outsAt0 m c (n - 1) (Nat.lt_of_le_of_lt (Nat.sub_le _ _) hn)).2 0 h cc y]

/-- The row carried out of point `n` is the least upper bound of the batch's rows up to the end of the point's tile. -/
theorem carry_le_iff (c : Dev nD) (n : ℕ) : ∀ (hn : n < cfg0.N) (h : Fin 64) (cc : Fin 128) (y : EReal),
    ((outsAt0 m c n hn).2 (ix4 0 0 h cc) : EReal) ≤ y
      ↔ ∀ t' : Fin 512, t'.val < 64 * (n % 8 + 1) → xarr m c (ix4 (bOf ⟨n, hn⟩) t' h cc) ≤ y := by
  induction n using Nat.strong_induction_on with
  | _ n ih =>
    intro hn h cc y
    have hN' : cfg0.N = 128 := hN
    by_cases h0 : n % 8 = 0
    · rw [carry_A m c n hn h0 h cc y]
      constructor
      · intro H t' ht'
        have ht64 : t'.val < 64 := by omega
        have H' := H ⟨t'.val, ht64⟩
        rw [xblk_apply] at H'
        have e : rowOf ⟨n, hn⟩ ⟨t'.val, ht64⟩ = t' := Fin.ext (by show 64 * (n % 8) + t'.val = t'.val; omega)
        rwa [e] at H'
      · intro H r'
        rw [xblk_apply]
        exact H (rowOf ⟨n, hn⟩ r') (by show 64 * (n % 8) + r'.val < 64 * (n % 8 + 1); have := r'.isLt; omega)
    · have hn1 : n - 1 < cfg0.N := Nat.lt_of_le_of_lt (Nat.sub_le _ _) hn
      have eb : bOf ⟨n - 1, hn1⟩ = bOf ⟨n, hn⟩ := Fin.ext (by show (n - 1) / 8 = n / 8; omega)
      have em : (n - 1) % 8 + 1 = n % 8 := by omega
      rw [carry_B m c n hn h0 h cc y, ih (n - 1) (by omega) hn1 h cc y, eb, em]
      constructor
      · rintro ⟨H1, H2⟩ t' ht'
        by_cases hlt : t'.val < 64 * (n % 8)
        · exact H2 t' hlt
        · have hr : t'.val - 64 * (n % 8) < 64 := by omega
          have H' := H1 ⟨t'.val - 64 * (n % 8), hr⟩
          rw [xblk_apply] at H'
          have e : rowOf ⟨n, hn⟩ ⟨t'.val - 64 * (n % 8), hr⟩ = t' :=
            Fin.ext (by show 64 * (n % 8) + (t'.val - 64 * (n % 8)) = t'.val; omega)
          rwa [e] at H'
      · intro H
        refine ⟨fun r' => ?_, fun t' ht' => H t' (by omega)⟩
        rw [xblk_apply]
        exact H (rowOf ⟨n, hn⟩ r') (by show 64 * (n % 8) + r'.val < 64 * (n % 8 + 1); have := r'.isLt; omega)

/-! ## The tile written back at each point -/

/-- The tile written back at point `n`, at its row `r`, by its upper bounds: the batch's rows `0 … 64·(n % 8) + r`. -/
theorem out_le_iff (c : Dev nD) (n : ℕ) (hn : n < cfg0.N) (r : Fin 64) (h : Fin 64) (cc : Fin 128) (y : EReal) :
    ((outsAt0 m c n hn).1 (ix4 0 r h cc) : EReal) ≤ y
      ↔ ∀ t' : Fin 512, t'.val ≤ 64 * (n % 8) + r.val → xarr m c (ix4 (bOf ⟨n, hn⟩) t' h cc) ≤ y := by
  have hN' : cfg0.N = 128 := hN
  by_cases h0 : n % 8 = 0
  · rw [outsAt0_A m c ⟨n, hn⟩ h0]
    dsimp only
    rw [out_A (F := Ideal) c (grid0.coords ⟨n, hn⟩) (ms0_0 ⟨n, hn⟩) (hs0_0 ⟨n, hn⟩) (ms0_1 ⟨n, hn⟩) (hs0_1 ⟨n, hn⟩) scM0_0
      (Memref.isWhole_whole _) ((hcond0_0 ⟨n, hn⟩).mpr h0) (xblk m c ⟨n, hn⟩)]
    rw [stored_le_iff (xblk m c ⟨n, hn⟩) (k0_pay2 (F := Ideal)) 0 r h cc y, reset_apply]
    constructor
    · rintro ⟨H, -⟩ t' ht'
      have ht64 : t'.val < 64 := by have := r.isLt; omega
      have H' := H ⟨t'.val, ht64⟩ (by show t'.val ≤ r.val; omega)
      rw [xblk_apply] at H'
      have e : rowOf ⟨n, hn⟩ ⟨t'.val, ht64⟩ = t' := Fin.ext (by show 64 * (n % 8) + t'.val = t'.val; omega)
      rwa [e] at H'
    · intro H
      refine ⟨fun r' hr' => ?_, bot_le⟩
      rw [xblk_apply]
      exact H (rowOf ⟨n, hn⟩ r') (by show 64 * (n % 8) + r'.val ≤ 64 * (n % 8) + r.val; omega)
  · have hn1 : n - 1 < cfg0.N := Nat.lt_of_le_of_lt (Nat.sub_le _ _) hn
    have eb : bOf ⟨n - 1, hn1⟩ = bOf ⟨n, hn⟩ := Fin.ext (by show (n - 1) / 8 = n / 8; omega)
    have em : (n - 1) % 8 + 1 = n % 8 := by omega
    rw [outsAt0_B m c ⟨n, hn⟩ h0]
    dsimp only
    rw [out_B (F := Ideal) c (grid0.coords ⟨n, hn⟩) (ms0_0 ⟨n, hn⟩) (hs0_0 ⟨n, hn⟩) (ms0_1 ⟨n, hn⟩) (hs0_1 ⟨n, hn⟩) scM0_0
      (Memref.isWhole_whole _) (fun h => h0 ((hcond0_0 ⟨n, hn⟩).mp h)) (xblk m c ⟨n, hn⟩)
      (outsAt0 m c (n - 1) (Nat.lt_of_le_of_lt (Nat.sub_le _ _) hn)).2]
    rw [stored_le_iff (xblk m c ⟨n, hn⟩) (outsAt0 m c (n - 1) (Nat.lt_of_le_of_lt (Nat.sub_le _ _) hn)).2 0 r h cc y,
      carry_le_iff m c (n - 1) hn1 h cc y, eb, em]
    constructor
    · rintro ⟨H1, H2⟩ t' ht'
      by_cases hlt : t'.val < 64 * (n % 8)
      · exact H2 t' hlt
      · have hr : t'.val - 64 * (n % 8) < 64 := by have := r.isLt; omega
        have H' := H1 ⟨t'.val - 64 * (n % 8), hr⟩ (by show t'.val - 64 * (n % 8) ≤ r.val; omega)
        rw [xblk_apply] at H'
        have e : rowOf ⟨n, hn⟩ ⟨t'.val - 64 * (n % 8), hr⟩ = t' :=
          Fin.ext (by show 64 * (n % 8) + (t'.val - 64 * (n % 8)) = t'.val; omega)
        rwa [e] at H'
    · intro H
      refine ⟨fun r' hr' => ?_, fun t' ht' => H t' (by omega)⟩
      rw [xblk_apply]
      exact H (rowOf ⟨n, hn⟩ r') (by show 64 * (n % 8) + r'.val ≤ 64 * (n % 8) + r.val; omega)

/-- So that tile is the running maximum of the argument at the positions under it. -/
theorem out_eq (c : Dev nD) (t : Fin cfg0.N) (r : Fin 64) (h : Fin 64) (cc : Fin 128) :
    ((outsAt0 m c t.val t.isLt).1 (ix4 0 r h cc) : EReal) = cummax (xarr m c) (ix4 (bOf t) (rowOf t r) h cc) :=
  eq_of_forall_le_iff fun y => by
    rw [out_le_iff m c t.val t.isLt r h cc y, cummax_le_iff]

/-! ## From the tiles to the array -/

/-- What point `t` writes back is block `t` of the running maximum of the argument. -/
theorem flushed_eq (c : Dev nD) (t : Fin cfg0.N) :
    (dats m 0 c).flushed 1 t = ((cfg0.win 1).blk t).view.read (Elt Ideal) (cummax (xarr m c)) := by
  obtain ⟨-, -, -, -, e0, e1, e2, e3⟩ := idx_facts t
  rw [Cert.KernelIdeal.Value.flushed1]
  funext j
  have hj := eq_ix4 (j : S1x64x64x128.Idx)
  obtain ⟨a, r, h, cc, rfl⟩ : ∃ (a : Fin 1) (r : Fin 64) (h : Fin 64) (cc : Fin 128), j = ix4 a r h cc :=
    ⟨j 0, j 1, j 2, j 3, hj⟩
  obtain rfl : a = 0 := Subsingleton.elim a 0
  show ((outsAt0 m c t.val t.isLt).1 (ix4 0 r h cc) : EReal)
    = cummax (xarr m c) (((cfg0.win 1).blk t).view.emb (ix4 0 r h cc))
  rw [out_eq m c t r h cc]
  refine congrArg (cummax (xarr m c)) (funext fun b => Fin.ext ?_)
  match b with
  | ⟨0, _⟩ => show t.val / 8 = win0_1.index t (0 : Fin 4) * 1 + 1 * 0; omega
  | ⟨1, _⟩ => show 64 * (t.val % 8) + r.val = win0_1.index t (1 : Fin 4) * 64 + 1 * r.val; omega
  | ⟨2, _⟩ => show h.val = win0_1.index t (2 : Fin 4) * 64 + 1 * h.val; omega
  | ⟨3, _⟩ => show cc.val = win0_1.index t (3 : Fin 4) * 128 + 1 * cc.val; omega

/-- Every position of the array lies in the block of the point `8·b + t / 64`. -/
theorem cover (i : S16x512x64x128.Idx) :
    ∃ t : Fin cfg0.N, (cfg0.win 1).flush t = true ∧ i ∈ ((cfg0.win 1).blk t).view.set := by
  have hN' : cfg0.N = 128 := hN
  have i0 : (i 0).val < 16 := (i 0).isLt
  have i1 : (i 1).val < 512 := (i 1).isLt
  have i2 : (i 2).val < 64 := (i 2).isLt
  have i3 : (i 3).val < 128 := (i 3).isLt
  obtain ⟨t, ht⟩ : ∃ t : Fin cfg0.N, t.val = 8 * (i 0).val + (i 1).val / 64 :=
    ⟨⟨8 * (i 0).val + (i 1).val / 64, by omega⟩, rfl⟩
  obtain ⟨-, -, -, -, e0, e1, e2, e3⟩ := idx_facts t
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 64 ≤ (i 1).val ∧ (i 1).val < win0_1.index t (1 : Fin 4) * 64 + 64
    omega
  | ⟨2, _⟩ =>
    show win0_1.index t (2 : Fin 4) * 64 ≤ (i 2).val ∧ (i 2).val < win0_1.index t (2 : Fin 4) * 64 + 64
    omega
  | ⟨3, _⟩ =>
    show win0_1.index t (3 : Fin 4) * 128 ≤ (i 3).val ∧ (i 3).val < win0_1.index t (3 : Fin 4) * 128 + 128
    omega

/-- The result array after the run: the running maximum of the argument. -/
theorem final (c : Dev nD) : (dats m 0 c).arrAt 1 cfg0.N = cummax (xarr m c) :=
  (dats m 0 c).arrAt_eq_of_cover 1 (cummax (xarr m c)) (fun t _ => flushed_eq m c t) cover

/-- The run, read: the result at the running maximum of the argument as launched, the argument unchanged. -/
theorem run : θ_run defs (onTc (τ := τ) (main (F := Ideal))) ⟨m, fun _ => 0, ρ⟩ fun r => ∀ c : Dev nD,
      r.2.mem ((c : Thread nD τ).loc main_v0) = cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.RunValue

end
-- ==== Proof.lean ====
/-
  The kernel computes the running maximum of a [16, 512, 64, 128] array along its axis of extent 512, tile by tile:
  64 rows at a time by a log-depth doubling scan, combined with the maximum carried over from the tiles before it in
  the same batch.  The reference computes it as a windowed `max`-reduction over the array padded with `-∞`.

  Over the extended reals both are the least upper bound of the entries at or before each position (`Scan.cummax`):
  `max` is associative, commutative and idempotent and `-∞` is its identity, so no finiteness of the input is used.
  The kernel's side is `RunValue.run` (the doubling scan in `Scan` and `TileValue`, the induction over the grid points
  in `RunValue`); the reference's side is `Scan.reduceWindow_eq_cummax`.  The ideal pass rewrote nothing, so the
  idealization claim is trivial; the frames of the two kernel programs are the generated ones, and the reference's
  frame is its run with the result dropped.
-/
import proofs.«161369_j70927089926350_1_alg».proof.Defs
import proofs.«161369_j70927089926350_1_alg».proof.Proof.Gen.Kernel
import proofs.«161369_j70927089926350_1_alg».proof.Proof.Gen.Kernel.Skeleton
import proofs.«161369_j70927089926350_1_alg».proof.Proof.Gen.Kernel.Launch
import proofs.«161369_j70927089926350_1_alg».proof.Proof.Gen.Kernel.Points
import proofs.«161369_j70927089926350_1_alg».proof.Proof.Gen.Kernel.Frame
import proofs.«161369_j70927089926350_1_alg».proof.Proof.Gen.KernelIdeal
import proofs.«161369_j70927089926350_1_alg».proof.Proof.Gen.KernelIdeal.Skeleton
import proofs.«161369_j70927089926350_1_alg».proof.Proof.Gen.KernelIdeal.Launch
import proofs.«161369_j70927089926350_1_alg».proof.Proof.Gen.KernelIdeal.Points
import proofs.«161369_j70927089926350_1_alg».proof.Proof.Gen.KernelIdeal.Frame
import proofs.«161369_j70927089926350_1_alg».proof.Proof.Gen.KernelIdeal.Value
import proofs.«161369_j70927089926350_1_alg».proof.Proof.Gen.ReferenceIdeal
import proofs.«161369_j70927089926350_1_alg».proof.Proof.Gen.Pre_finite_inputs
import proofs.«161369_j70927089926350_1_alg».proof.Proof.RefRun
import proofs.«161369_j70927089926350_1_alg».proof.Proof.Cummax
import proofs.«161369_j70927089926350_1_alg».proof.Proof.RunValue
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the running maximum of the (agreeing) arguments. -/
theorem algebraic : Cert.algebraic_KernelIdeal_ReferenceIdeal := by
  intro m ρ m' ρ' _ hagree
  refine ⟨fun c => Cert.Scan.cummax (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Scan.reduceWindow_eq_cummax _ _ (fun _ => Cert.Scan.negInf) _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
